-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x256 .f32) (main_arg1 : FVec F S256x128 .f32) (main_arg2 : IVec S1600000 32) (main_arg3 : IVec S1600000 32) (main_arg4 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x256 : Shape := ⟨2, ![100000, 256]⟩
abbrev S256x128 : Shape := ⟨2, ![256, 128]⟩
abbrev S1600000 : Shape := ⟨1, ![1600000]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S10000x128 : Shape := ⟨2, ![10000, 128]⟩

abbrev nBuf : Space → Nat
  | .hbm => 23
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.MatmulRegion.lean ====
/-
  Region 0 of the kernel's program: the row-tiled matrix product. Grid point `t` multiplies rows
  2000·t … 2000·t + 1999 of the left array by the whole right array into a zero accumulator and writes
  the 2000 × 128 block back at the same rows. Over the extended reals entry (r, c) of a block is the sum
  over the 256 inner indices of left (r, k) · right (k, c); the blocks tile the 100000 rows, so after the
  region the output array holds the whole product, entry by entry that same sum.
-/
import proofs.«424465_j30889404793465_4_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

/-! ## The product as one function of the two arrays -/

/-- The left array's index (r, k) for output index i = (r, c). -/
abbrev rowAt (i : S100000x128.Idx) (k : Fin 256) : S100000x256.Idx := fun a => match a with
  | ⟨0, _⟩ => ⟨(i 0).val, (i 0).isLt⟩
  | ⟨1, _⟩ => ⟨k.val, k.isLt⟩
/-- The right array's index (k, c) for output index i = (r, c). -/
abbrev colAt (i : S100000x128.Idx) (k : Fin 256) : S256x128.Idx := fun a => match a with
  | ⟨0, _⟩ => ⟨k.val, k.isLt⟩
  | ⟨1, _⟩ => ⟨(i 1).val, (i 1).isLt⟩

/-- The matrix product over the extended reals: entry (r, c) is ∑ₖ a (r, k) · w (k, c). -/
def prod (a : (⟨S100000x256, .f32⟩ : BufTy).Contents (Elt Ideal)) (w : (⟨S256x128, .f32⟩ : BufTy).Contents (Elt Ideal)) :
    (⟨S100000x128, .f32⟩ : BufTy).Contents (Elt Ideal) :=
  fun i => ∑ k : Fin 256, a (rowAt i k) * w (colAt i k)

/-! ## One block: the body's product at an index of the block -/

/-- Inside a block: the left block's index (p, k) and the right block's (k, q) for block index j = (p, q). -/
abbrev blkRow (j : S2000x128.Idx) (k : Fin 256) : S2000x256.Idx := fun a => match a with
  | ⟨0, _⟩ => ⟨(j 0).val, (j 0).isLt⟩
  | ⟨1, _⟩ => ⟨k.val, k.isLt⟩
abbrev blkCol (j : S2000x128.Idx) (k : Fin 256) : S256x128.Idx := fun a => match a with
  | ⟨0, _⟩ => ⟨k.val, k.isLt⟩
  | ⟨1, _⟩ => ⟨(j 1).val, (j 1).isLt⟩

/-- The contraction's operand indices, axis by axis: the left operand is read at (row of j, q), the right at (q, column of j). -/
theorem lhs_blk_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_blk_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs_blk_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs_blk_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's stored value at block index (p, q): into a zero accumulator, the sum over k of x0 (p, k) · x1 (k, q). -/
theorem pay_apply (x0 : Vec Ideal S2000x256 .f32) (x1 : Vec Ideal S256x128 .f32) (j : S2000x128.Idx) :
    k0_pay1 (F := Ideal) x0 x1 j = ∑ k : Fin 256, x0 (blkRow j k) * x1 (blkCol j k) := by
  unfold k0_pay1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = blkRow j k := funext fun a => Fin.ext (by
    match a with
    | ⟨0, _⟩ => exact lhs_blk_0 _ _
    | ⟨1, _⟩ => exact (lhs_blk_1 _ _).trans hk)
  have er : dot_S2000x256_S256x128_S2000x128_1_0_0_1_n_n.rhsIdx j ((ValueIdx.contrEquiv1 dot_S2000x256_S256x128_S2000x128_1_0_0_1_n_n 256 rfl rfl).symm k) = blkCol j k := funext fun a => Fin.ext (by
    match a with
    | ⟨0, _⟩ => exact (rhs_blk_0 _ _).trans hk
    | ⟨1, _⟩ => exact rhs_blk_1 _ _)
  rw [el, er]

/-! ## From the blocks to the array -/

variable (V : (c : Dev nD) → (b : Ref sig .tc) → Buf (Elt Ideal) ((c : Thread nD τ).loc b))

/-- The two arrays region 0 reads, as it finds them, at their literal types. -/
abbrev arrA (c : Dev nD) : (⟨S100000x256, .f32⟩ : BufTy).Contents (Elt Ideal) := V c main_arg0
abbrev arrW (c : Dev nD) : (⟨S256x128, .f32⟩ : BufTy).Contents (Elt Ideal) := V c main_arg1

theorem zero_offsets : (![0, 0] : Fin 2 → Nat) = fun _ => 0 := funext fun a => by fin_cases a <;> rfl

/-- The printed index maps over the 50 grid points: the left and the output blocks sit at block row `t`, block
    column 0; the right array is one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two arrays as the region finds them. -/
theorem flushed_eq (c : Dev nD) (t : Fin cfg0.N) :
    (dat0 V c).flushed 2 t = ((cfg0.win 2).blk t).view.read (Elt Ideal) (prod (arrA V c) (arrW V c)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  obtain ⟨e0, e1, e2, e3, e4, e5⟩ := block_indices t
  funext j
  show k0_pay1 (F := Ideal) (iblk0 V c 0 t) (iblk0 V c 1 t) j = prod (arrA V c) (arrW V c) (((cfg0.win 2).blk t).view.emb j)
  refine (pay_apply (iblk0 V c 0 t) (iblk0 V c 1 t) j).trans ?_
  unfold prod
  refine Finset.sum_congr rfl fun k _ => ?_
  show arrA V c (((cfg0.win 0).blk t).view.emb (blkRow j k)) * arrW V c (((cfg0.win 1).blk t).view.emb (blkCol j k))
    = arrA V c (rowAt (((cfg0.win 2).blk t).view.emb j) k) * arrW V c (colAt (((cfg0.win 2).blk t).view.emb j) k)
  have h0 : ((cfg0.win 0).blk t).view.emb (blkRow j k) = rowAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (blkCol j k) = colAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the output array is in the block of the point its row falls in: row r in block r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by omega⟩
  obtain ⟨e0, e1, e2, e3, e4, e5⟩ := block_indices t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After region 0 its output array holds the whole product of the two arrays as the region found them. -/
theorem array_eq (c : Dev nD) : (dat0 V c).arrAt 2 cfg0.N = prod (arrA V c) (arrW V c) :=
  (dat0 V c).arrAt_eq_of_cover 2 (prod (arrA V c) (arrW V c)) (fun t _ => flushed_eq V c t) cover

end Cert.KernelIdeal.Product

end
-- ==== Proof.ReluRegion.lean ====
/-
  Region 1 of the kernel's program: the tiled rectifier. Grid point `t` loads rows 10000·t … 10000·t + 9999 of
  its input array, takes the larger of each entry and zero, and writes the block back at the same rows of the
  output. The ten blocks tile the 100000 rows, so after the region the output array is the input array with
  every entry replaced by its maximum with zero.
-/
import proofs.«424465_j30889404793465_4_alg».proof.Proof.Gen.KernelIdeal.Frame
import Idealize.ShloMosaic.Lib.Pipeline.Value
import Idealize.ShloMosaic.Lib.ValueIdx

set_option maxRecDepth 16384

noncomputable section

namespace Cert.KernelIdeal.Rectify

open Cert.KernelIdeal Cert.KernelIdeal.Gen Idealize.ShloMosaic Idealize.ShloMosaic.TcCoe Idealize.SL.Sem
open Idealize.ShloMosaic.Pipeline (Dat)

variable {F : FTy → Type} [FloatOps F]

/-- The rectifier of a whole array: each entry's maximum with the float zero. -/
def relu (y : (⟨S100000x128, .f32⟩ : BufTy).Contents (Elt F)) : (⟨S100000x128, .f32⟩ : BufTy).Contents (Elt F) :=
  fun i => FloatOps.maximumf (y i) (FloatOps.ofBits .f32 0x00000000#32)

/-- The body's stored value at an index of the block: the loaded entry's maximum with zero (the shape cast is to the
    same shape, the zero is a splat). -/
theorem pay_apply (x0 : Vec F S10000x128 .f32) (j : S10000x128.Idx) :
    k1_pay1 (F := F) x0 j = FloatOps.maximumf (x0 j) (FloatOps.ofBits .f32 0x00000000#32) := by
  unfold k1_pay1
  rw [shapeCast_self]
  rfl

variable (V : (c : Dev nD) → (b : Ref sig .tc) → Buf (Elt F) ((c : Thread nD τ).loc b))

theorem zero_offsets : (![0, 0] : Fin 2 → Nat) = fun _ => 0 := funext fun a => by fin_cases a <;> rfl

/-- The printed index maps over the 10 grid points: input and output blocks sit at block row `t`, block column 0. -/
theorem block_indices : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What grid point `t` writes back is block `t` of the rectified input array as the region finds it. -/
theorem flushed_eq (c : Dev nD) (t : Fin cfg1.N) :
    (dat1 V c).flushed 1 t = ((cfg1.win 1).blk t).view.read (Elt F) (relu (V c main_v13)) := by
  show (cfg1.win 1).cut (grid1.coords t) ((dat1 V c).after 1 t) = _
  rw [after1_1]
  unfold out1_1
  rw [View.canon_unit_zero zero_offsets]
  simp only [View.ld_unit_zero (S := S10000x128) zero_offsets]
  obtain ⟨e0, e1, e2, e3⟩ := block_indices t
  funext j
  show k1_pay1 (F := F) (iblk1 V c 0 t) j = relu (V c main_v13) (((cfg1.win 1).blk t).view.emb j)
  refine (pay_apply (iblk1 V c 0 t) j).trans ?_
  show FloatOps.maximumf (V c main_v13 (((cfg1.win 0).blk t).view.emb j)) (FloatOps.ofBits .f32 0x00000000#32)
    = FloatOps.maximumf (V c main_v13 (((cfg1.win 1).blk t).view.emb j)) (FloatOps.ofBits .f32 0x00000000#32)
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 128 + 1 * (j 1).val = win1_1.index t (1 : Fin 2) * 128 + 1 * (j 1).val; omega
  rw [h0]

/-- An index of the output array is in point `t`'s block iff each coordinate is in the block's range on its axis. -/
theorem mem_blk (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v14).slice (win1_1.rect t)).set ↔ _
  rw [View.set_slice_whole, Rect.mem_set_unit]
  exact Iff.rfl

/-- Every index of the output array is in the block of the point its row falls in: row r in block r / 10000. -/
theorem cover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : cfg1.N = 10 := N_1
  let t : Fin cfg1.N := ⟨(i 0).val / 10000, by omega⟩
  obtain ⟨e0, e1, e2, e3⟩ := block_indices t
  have ht : t.val = (i 0).val / 10000 := rfl
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 128 ≤ (i 1).val ∧ (i 1).val < win1_1.index t (1 : Fin 2) * 128 + 128; omega

/-- After region 1 its output array holds the rectified input array as the region found it. -/
theorem array_eq (c : Dev nD) : (dat1 V c).arrAt 1 cfg1.N = relu (V c main_v13) :=
  (dat1 V c).arrAt_eq_of_cover 1 (relu (V c main_v13)) (fun t _ => flushed_eq V c t) cover

end Cert.KernelIdeal.Rectify

end
-- ==== Proof.KernelValue.lean ====
/-
  The kernel's program end to end, over the extended reals. Region 0 leaves the matrix product of the first two
  arguments in its output array; the host operations between the regions turn a product array h, the two index
  arrays and the edge weights into the aggregate (gather the rows of h named by the sources, negative sources
  counted from the end, scale row e by weight e, and add each scaled row into the row its destination names,
  starting from zeros); region 1 replaces every entry by its maximum with zero. So the result array is
  relu (aggregate (a · w) src dst val): each piece read where it is written, the pieces joined by substitution.
-/
import proofs.«424465_j30889404793465_4_alg».proof.Proof.Gen.KernelIdeal.Frame
import proofs.«424465_j30889404793465_4_alg».proof.Proof.MatmulRegion
import proofs.«424465_j30889404793465_4_alg».proof.Proof.ReluRegion
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.KernelIdeal.Product (prod)
open Cert.KernelIdeal.Rectify (relu)

/-- The host operations between the two regions as ONE function of the product array, the source and destination
    index arrays and the edge weights: out[dst e] += val e · h[src e] over all edges e, from zeros (a negative source
    index is first moved up by the number of rows). -/
def aggregate {F : FTy → Type} [FloatOps F] (h : (⟨S100000x128, .f32⟩ : BufTy).Contents (Elt F))
    (src dst : (⟨S1600000, .i32⟩ : BufTy).Contents (Elt F)) (val : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (mulf
      (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))

variable (m : (ℓ : Loc nD τ sig) → Buf (Elt Ideal) ℓ) (ρ : Dev nD → PrngReg)

/-- Region 1's input array, as region 1 finds it, is the aggregate of region 0's output array and the three
    edge arguments: the sixteen host operations read back, each argument unchanged by region 0. -/
theorem between (c : Dev nD) :
    V2 m ρ c main_v13 = aggregate (W1 m ρ c (Proc.devRef .tc main_v0)) (m ((c : Thread nD τ).loc main_arg2))
      (m ((c : Thread nD τ).loc main_arg3)) (m ((c : Thread nD τ).loc main_arg4)) := by
  show StableHlo.after hostOps1 (W1 m ρ c) (Proc.devRef .tc main_v13) = _
  after_results
  rw [W1_of_ne m ρ c main_arg2 (by decide), W1_of_ne m ρ c main_arg3 (by decide), W1_of_ne m ρ c main_arg4 (by decide)]
  rfl

/-- Region 0's output array after region 0 is the product of the first two arguments. -/
theorem product (c : Dev nD) :
    W1 m ρ c (Proc.devRef .tc main_v0) = prod (m ((c : Thread nD τ).loc main_arg0)) (m ((c : Thread nD τ).loc main_arg1)) :=
  (W1_arr m ρ c 2).trans (Product.array_eq (V0 m ρ) c)

/-- The result array after the whole program: relu (aggregate (a · w) src dst val) of the arguments as launched. -/
theorem result_eq (c : Dev nD) :
    V3 m ρ c main_v14 = relu (aggregate (prod (m ((c : Thread nD τ).loc main_arg0)) (m ((c : Thread nD τ).loc main_arg1)))
      (m ((c : Thread nD τ).loc main_arg2)) (m ((c : Thread nD τ).loc main_arg3)) (m ((c : Thread nD τ).loc main_arg4))) :=
  calc V3 m ρ c main_v14
      = (dat1 (V2 m ρ) c).arrAt 1 cfg1.N := W3_arr m ρ c 1
    _ = relu (V2 m ρ c main_v13) := Rectify.array_eq (V2 m ρ) c
    _ = relu (aggregate (W1 m ρ c (Proc.devRef .tc main_v0)) (m ((c : Thread nD τ).loc main_arg2))
          (m ((c : Thread nD τ).loc main_arg3)) (m ((c : Thread nD τ).loc main_arg4))) := congrArg relu (between m ρ c)
    _ = _ := congrArg (fun h => relu (aggregate h (m ((c : Thread nD τ).loc main_arg2))
          (m ((c : Thread nD τ).loc main_arg3)) (m ((c : Thread nD τ).loc main_arg4)))) (product m ρ c)

end Cert.KernelIdeal.Result

end
-- ==== Proof.ReferenceValue.lean ====
/-
  The reference's program over the extended reals is the same function of its arguments as the kernel's: its
  matrix product read at an index is the sum over the 256 inner indices of left (r, k) · right (k, c); the
  operations that follow are the kernel program's host operations word for word, so they are the same
  aggregate of that product; and its final maximum with a zero array is, entry by entry, the maximum with zero.
-/
import proofs.«424465_j30889404793465_4_alg».proof.Proof.KernelValue
import proofs.«424465_j30889404793465_4_alg».proof.Proof.Gen.ReferenceIdeal.Read

set_option maxRecDepth 16384

noncomputable section

namespace Cert.ReferenceIdeal.Same

open Idealize.ShloMosaic Idealize.ShloMosaic.TcCoe Idealize.SL.Sem
open Cert.KernelIdeal.Product (prod)
open Cert.KernelIdeal.Rectify (relu)
open Cert.KernelIdeal.Result (aggregate)
open Cert.ReferenceIdeal Cert.ReferenceIdeal.Gen

/-- The reference's matrix product is the product function: entry (r, c) is ∑ₖ a (r, k) · w (k, c). -/
theorem product_eq (x0 : (⟨S100000x256, .f32⟩ : BufTy).Contents (Elt Ideal)) (x1 : (⟨S256x128, .f32⟩ : BufTy).Contents (Elt Ideal)) :
    Host.dotGeneral (F := Ideal) (φ₁ := .f32) (φ₂ := .f32) dot_S100000x256_S256x128_S100000x128_1_0_0_1_n_n none x0 x1 = prod x0 x1 :=
  funext fun i => Read.val_main_v0_apply x0 x1 i

/-- The reference's zero array reads the float zero at every index. -/
theorem zeros_apply (i : S100000x128.Idx) :
    broadcastInDim S100000x128 ![] bcast_S_S100000x128 (constant (F := Ideal) S_ .f32 0x00000000#32) i
      = FloatOps.ofBits .f32 0x00000000#32 :=
  Read.val_main_call0_v0_apply (F := Ideal) i

/-- The maximum of ANY array with the zero array is its rectifier: entry by entry, the maximum with zero. -/
theorem max_zeros (y : (⟨S100000x128, .f32⟩ : BufTy).Contents (Elt Ideal)) :
    maximumf (F := Ideal) y (broadcastInDim S100000x128 ![] bcast_S_S100000x128 (constant (F := Ideal) S_ .f32 0x00000000#32)) = relu y := by
  funext i
  show FloatOps.maximumf (y i) (broadcastInDim S100000x128 ![] bcast_S_S100000x128 (constant (F := Ideal) S_ .f32 0x00000000#32) i)
    = FloatOps.maximumf (y i) (FloatOps.ofBits .f32 0x00000000#32)
  rw [zeros_apply i]

/-- The reference's operations after its product are the aggregate of ANY product array: the same operations, the
    same dimension records and the same constants as between the kernel program's two regions. -/
theorem chain_eq (h : (⟨S100000x128, .f32⟩ : BufTy).Contents (Elt Ideal))
    (x2 x3 : (⟨S1600000, .i32⟩ : BufTy).Contents (Elt Ideal)) (x4 : (⟨S1600000, .f32⟩ : BufTy).Contents (Elt Ideal)) :
    Host.scatterAdd (F := Ideal) scatter_S100000x128_S1600000x1_S1600000x128_1_0_0_1 (broadcastInDim S100000x128 ![] bcast_S_S100000x128 (constant S_ .f32 0x00000000#32)) (broadcastInDim S1600000x1 ![0] bcast_S1600000_S1600000x1_0 (x3)) (mulf (broadcastInDim S1600000x128 ![0, 1] bcast_S1600000x1_S1600000x128_0_1 (broadcastInDim S1600000x1 ![0] bcast_S1600000_S1600000x1_0 (x4))) (Host.gather gather_S100000x128_S1600000x1_S1600000x128_1_0_n_n_0_1_1128 h (broadcastInDim S1600000x1 ![0] bcast_S1600000_S1600000x1_0 (select (cmpi .slt (x2) (broadcastInDim S1600000 ![] bcast_S_S1600000 (constantI S_ 32 0#32))) (addi (x2) (broadcastInDim S1600000 ![] bcast_S_S1600000 (constantI S_ 32 100000#32))) (x2)))))
      = aggregate h x2 x3 x4 := rfl

/-- The term the reference's run ends at is relu (aggregate (a · w) src dst val) of its arguments. -/
theorem result_eq (x0 : (⟨S100000x256, .f32⟩ : BufTy).Contents (Elt Ideal)) (x1 : (⟨S256x128, .f32⟩ : BufTy).Contents (Elt Ideal))
    (x2 x3 : (⟨S1600000, .i32⟩ : BufTy).Contents (Elt Ideal)) (x4 : (⟨S1600000, .f32⟩ : BufTy).Contents (Elt Ideal)) :
    maximumf (F := Ideal) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (x3)) (mulf (broadcastInDim S1600000x128 ![0, 1] bcast_S1600000x1_S1600000x128_0_1 (broadcastInDim S1600000x1 ![0] bcast_S1600000_S1600000x1_0 (x4))) (Host.gather gather_S100000x128_S1600000x1_S1600000x128_1_0_n_n_0_1_1128 (Host.dotGeneral (φ₁ := .f32) (φ₂ := .f32) dot_S100000x256_S256x128_S100000x128_1_0_0_1_n_n none (x0) (x1)) (broadcastInDim S1600000x1 ![0] bcast_S1600000_S1600000x1_0 (select (cmpi .slt (x2) (broadcastInDim S1600000 ![] bcast_S_S1600000 (constantI S_ 32 0#32))) (addi (x2) (broadcastInDim S1600000 ![] bcast_S_S1600000 (constantI S_ 32 100000#32))) (x2)))))) (broadcastInDim S100000x128 ![] bcast_S_S100000x128 (constant S_ .f32 0x00000000#32))
      = relu (aggregate (prod x0 x1) x2 x3 x4) := by
  rw [product_eq x0 x1, chain_eq (prod x0 x1) x2 x3 x4]
  exact max_zeros _

end Cert.ReferenceIdeal.Same

end
-- ==== Proof.lean ====
/-
  A graph-convolution layer, kernel against reference, over the extended reals.

  Both programs compute  relu (A · (X · W))  where X · W is the 100000 × 256 by 256 × 128 matrix product and A is the
  sparse adjacency given as 1,600,000 edges: out[dst e] += val e · (X · W)[src e], starting from zeros. The kernel's
  program does the product in 50 row blocks of 2000 rows (each block's product into a zero accumulator), the edge
  aggregation on the host, and the final maximum with zero in 10 row blocks of 10000 rows. The reference does the
  product as one contraction, the same edge aggregation, and one whole-array maximum with a zero array.

  Over the extended reals a block's product entry and the whole contraction's entry are the same sum over the 256
  inner indices of left (r, k) · right (k, c): no rounding, no order. The row blocks tile the arrays, so the kernel's
  two tiled stages leave the whole product and the whole rectified array. The aggregation between them is the same
  operations on both sides and is carried as one function, never opened. Hence both programs end with
  relu (aggregate (X · W) src dst val) of arguments that agree; nothing here needs the inputs to be finite.

  The three frame claims: each program terminates without fault and leaves its arguments as launched. The ideal pass
  rewrote nothing, so the kernel's idealization is its own text read over the extended reals.
-/
import proofs.«424465_j30889404793465_4_alg».proof.Defs
import proofs.«424465_j30889404793465_4_alg».proof.Proof.Gen.Kernel
import proofs.«424465_j30889404793465_4_alg».proof.Proof.Gen.Kernel.Skeleton
import proofs.«424465_j30889404793465_4_alg».proof.Proof.Gen.Kernel.Launch
import proofs.«424465_j30889404793465_4_alg».proof.Proof.Gen.Kernel.Points
import proofs.«424465_j30889404793465_4_alg».proof.Proof.Gen.Kernel.Frame
import proofs.«424465_j30889404793465_4_alg».proof.Proof.Gen.KernelIdeal
import proofs.«424465_j30889404793465_4_alg».proof.Proof.Gen.KernelIdeal.Skeleton
import proofs.«424465_j30889404793465_4_alg».proof.Proof.Gen.KernelIdeal.Launch
import proofs.«424465_j30889404793465_4_alg».proof.Proof.Gen.KernelIdeal.Points
import proofs.«424465_j30889404793465_4_alg».proof.Proof.Gen.KernelIdeal.Frame
import proofs.«424465_j30889404793465_4_alg».proof.Proof.Gen.ReferenceIdeal
import proofs.«424465_j30889404793465_4_alg».proof.Proof.Gen.Pre_finite_inputs
import proofs.«424465_j30889404793465_4_alg».proof.Proof.Gen.ReferenceIdeal.Run
import proofs.«424465_j30889404793465_4_alg».proof.Proof.Gen.ReferenceIdeal.Read
import proofs.«424465_j30889404793465_4_alg».proof.Proof.RunMain
import proofs.«424465_j30889404793465_4_alg».proof.Proof.KernelValue
import proofs.«424465_j30889404793465_4_alg».proof.Proof.ReferenceValue
import Idealize.ShloMosaic.Adequacy
import Idealize.ShloMosaic.Init

noncomputable section

namespace Cert.Proof

open Idealize.ShloMosaic Idealize.ShloMosaic.TcCoe Idealize.SL.Sem

namespace Claims

/-- The word-level kernel program terminates, faults nowhere and leaves its arguments as launched. -/
theorem frame_k : Cert.frame_Kernel := fun m ρ _ => Cert.Kernel.Gen.frame m ρ
/-- So does the kernel program read over the extended reals. -/
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From arguments that agree, both programs end with relu (aggregate (X · W) src dst val): the kernel's by its two
    tiled regions and the host operations between them, the reference's by its run read back. -/
theorem algebraic : Cert.algebraic_KernelIdeal_ReferenceIdeal := by
  intro m ρ m' ρ' _ hagree
  refine ⟨fun c => Cert.KernelIdeal.Rectify.relu (Cert.KernelIdeal.Result.aggregate
      (Cert.KernelIdeal.Product.prod (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.Result.result_eq m ρ c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Same.result_eq _ _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
